-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S2x1600000 : Shape := ⟨2, ![2, 1600000]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S20000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S2x1600000 32) (main_arg9 : IVec S800000 32) (main_arg10 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S2x1600000 : Shape := ⟨2, ![2, 1600000]⟩
abbrev S800000 : Shape := ⟨1, ![800000]⟩
abbrev S1x128 : Shape := ⟨2, ![1, 128]⟩
abbrev S2000x128 : Shape := ⟨2, ![2000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S800000x1 : Shape := ⟨2, ![800000, 1]⟩
abbrev S800000x128 : Shape := ⟨2, ![800000, 128]⟩
abbrev S100000x1 : Shape := ⟨2, ![100000, 1]⟩
abbrev S2000 : Shape := ⟨1, ![2000]⟩
abbrev S2000x1 : Shape := ⟨2, ![2000, 1]⟩

abbrev nBuf : Space → Nat
  | .hbm => 101
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x1600000, .i32⟩
  | .hbm, ⟨9, _⟩ => ⟨S800000, .i32⟩
  | .hbm, ⟨10, _⟩ => ⟨S800000, .i32⟩
  | .hbm, ⟨11, _⟩ => ⟨S1x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S20000x128, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .f32⟩
  | .hbm, ⟨85, _⟩ => ⟨S100000x128, .f32⟩
  | .hbm, ⟨86, _⟩ => ⟨S800000x1, .i32⟩
  | .hbm, ⟨87, _⟩ => ⟨S100000x128, .f32⟩
  | .hbm, ⟨88, _⟩ => ⟨S_, .f32⟩
  | .hbm, ⟨89, _⟩ => ⟨S800000, .f32⟩
  | .hbm, ⟨90, _⟩ => ⟨S_, .f32⟩
  | .hbm, ⟨91, _⟩ => ⟨S100000, .f32⟩
  | .hbm, ⟨92, _⟩ => ⟨S800000x1, .i32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  dot_S2000x128_S128x128_S2000x128_1_0_0_1_n_n_wf : DotDims.WF S2000x128 S128x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_1) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S2x1600000 : Shape := ⟨2, ![2, 1600000]⟩
abbrev S800000 : Shape := ⟨1, ![800000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S800000x1 : Shape := ⟨2, ![800000, 1]⟩
abbrev S800000x128 : Shape := ⟨2, ![800000, 128]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S20000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S2x1600000, .i32⟩
  | 9 => ⟨S800000, .i32⟩
  | 10 => ⟨S800000, .i32⟩
  | 11 => ⟨S100000x128, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S20000x128, .f32⟩
  | 72 => ⟨S1x128, .f32⟩
  | 73 => ⟨S20000x128, .f32⟩
  | 74 => ⟨S20000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S100000x128, .f32⟩
  | 86 => ⟨S800000x1, .i32⟩
  | 87 => ⟨S100000x128, .f32⟩
  | 88 => ⟨S_, .f32⟩
  | 89 => ⟨S800000, .f32⟩
  | 90 => ⟨S_, .f32⟩
  | 91 => ⟨S100000, .f32⟩
  | 92 => ⟨S800000x1, .i32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S100000, .f32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S100000x128, .f32⟩
  | 118 => ⟨S_, .f32⟩
  | 119 => ⟨S100000, .f32⟩
  | 120 => ⟨S100000x1, .f32⟩
  | 121 => ⟨S_, .f32⟩
  | 122 => ⟨S100000x1, .f32⟩
  | 123 => ⟨S100000x1, .f32⟩
  | 124 => ⟨S100000x128, .f32⟩
  | 125 => ⟨S100000x128, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S20000x128_0_1 : S1x128.BroadcastsInDim S20000x128 (![0, 1] : Fin 2 → Fin S20000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S20000x128_S128x128_S20000x128_1_0_0_1_n_n_wf : DotDims.WF S20000x128 S128x128 S20000x128 [1] [0] [0] [1] [] []
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.Reads.lean ====
/-
  What the buffers hold at each region's entry, read back through the run's boundaries.

  The two bias rows the first two regions read are reshapes of two argument vectors: entry (0, q) of the row
  is entry q of the vector. Every other buffer the first two regions read is an argument array, which no
  earlier operation writes; the second region does not write the first region's outputs; and the last
  region's output buffer holds what that region's write-backs leave.
-/
import proofs.«147961_j2302102471104_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Reads

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- A buffer other than the two bias rows is as launched when the first region is entered: the two reshapes
    before it write only those rows. -/
theorem W1_of_ne (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by assumption)))).trans rfl

/-- A vector of 128 entries reshaped to one row: entry (0, q) of the row is entry q of the vector. -/
theorem row_of_vec (v : S128.Idx → EReal) (q : Fin 128) :
    shapeCast S1x128 v shapeCasts_S128_S1x128 (ix2 (0 : Fin 1) q) = v (ix1 q) :=
  shapeCast_apply v shapeCasts_S128_S1x128 (ix2 (0 : Fin 1) q) (ix1 q)
    (by rewrite [Shape.rowMajor_val_two, Shape.rowMajor_val_one]; show q.val = 0 * 128 + q.val; omega)

/-- The first region's bias row is the eighth argument as one row. -/
theorem W1_v0_at (c : Dev nD) (q : Fin 128) :
    W1 m ρ c (Proc.devRef .tc main_v0) (ix2 (0 : Fin 1) q) = m ((c : Thread nD τ).loc main_arg7) (ix1 q) := by
  show StableHlo.after hostOps0 (W0 m ρ c) (Proc.devRef .tc main_v0) (ix2 (0 : Fin 1) q) = _
  simp only [StableHlo.after_cons, StableHlo.after_nil]
  rw [StableHlo.reshape_result_ne]; rotate_left; decide
  rw [StableHlo.reshape_result]
  exact row_of_vec _ q

/-- The second region's bias row is the sixth argument as one row. -/
theorem W1_v1_at (c : Dev nD) (q : Fin 128) :
    W1 m ρ c (Proc.devRef .tc main_v1) (ix2 (0 : Fin 1) q) = m ((c : Thread nD τ).loc main_arg5) (ix1 q) := by
  show StableHlo.after hostOps0 (W0 m ρ c) (Proc.devRef .tc main_v1) (ix2 (0 : Fin 1) q) = _
  simp only [StableHlo.after_cons, StableHlo.after_nil]
  rw [StableHlo.reshape_result]
  exact row_of_vec _ q

/-- A buffer that is neither a bias row nor one of the first region's arrays is as launched when the second
    region is entered. -/
theorem W2_of_arg (c : Dev nD) (b : Ref sig .tc) (hb : ∀ w, Pipeline.arrRef spec0 w ≠ b) (h0 : b ≠ main_v0) (h1 : b ≠ main_v1) :
    W2 m ρ c (Proc.devRef .tc b) = m ((c : Thread nD τ).loc b) :=
  (W2_of_ne m ρ c b hb).trans (W1_of_ne m ρ c b h0 h1)

/-- The second region's bias row, as that region finds it, is the sixth argument as one row. -/
theorem W2_v1_at (c : Dev nD) (q : Fin 128) :
    W2 m ρ c (Proc.devRef .tc main_v1) (ix2 (0 : Fin 1) q) = m ((c : Thread nD τ).loc main_arg5) (ix1 q) :=
  (congrFun (W2_of_ne m ρ c main_v1 (by decide)) _).trans (W1_v1_at m ρ c q)

/-- A buffer that is neither a bias row nor one of the first two regions' arrays is as launched after the
    second region. -/
theorem W3_of_arg (c : Dev nD) (b : Ref sig .tc) (hb1 : ∀ w, Pipeline.arrRef spec1 w ≠ b) (hb0 : ∀ w, Pipeline.arrRef spec0 w ≠ b)
    (h0 : b ≠ main_v0) (h1 : b ≠ main_v1) :
    W3 m ρ c (Proc.devRef .tc b) = m ((c : Thread nD τ).loc b) :=
  (W3_of_ne m ρ c b hb1).trans (W2_of_arg m ρ c b hb0 h0 h1)

/-- After the second region the first region's first output still holds what that region's write-backs left. -/
theorem W3_out0_4 (c : Dev nD) :
    W3 m ρ c (Proc.devRef .tc main_v2_0) = (dat0 (V1 m ρ) c).arrAt 4 cfg0.N :=
  (W3_of_ne m ρ c main_v2_0 (by decide)).trans (W2_arr m ρ c 4)

/-- After the second region the first region's second output still holds what that region's write-backs left. -/
theorem W3_out0_5 (c : Dev nD) :
    W3 m ρ c (Proc.devRef .tc main_v2_1) = (dat0 (V1 m ρ) c).arrAt 5 cfg0.N :=
  (W3_of_ne m ρ c main_v2_1 (by decide)).trans (W2_arr m ρ c 5)

/-- After the second region its output holds what its write-backs left. -/
theorem W3_out1_3 (c : Dev nD) :
    W3 m ρ c (Proc.devRef .tc main_v3) = (dat1 (V2 m ρ) c).arrAt 3 cfg1.N :=
  W3_arr m ρ c 3

/-- At the end of the run the result buffer holds what the last region's write-backs left. -/
theorem W7_out2_3 (c : Dev nD) :
    W7 m ρ c (Proc.devRef .tc main_v69) = (dat2 (V6 m ρ) c).arrAt 3 cfg2.N :=
  W7_arr m ρ c 3

end Cert.KernelIdeal.Reads

end
-- ==== Proof.Mid.lean ====
/-
  The host operations between the kernel's regions, carried whole.

  Between its second and third region the kernel's program applies to the two transformed feature arrays
  exactly the chain of gathers, scatter-adds and pointwise operations that the reference applies to its own
  products: the degree-normalised neighbourhood sum plus its bias row, and the mean of the gathered drug
  rows per protein. Nothing in that chain is opened here. From any buffer contents X in which the two
  transformed arrays already hold what the reference's stages hold, the chain leaves in the two buffers
  the last region reads exactly the reference's next stages: the two sides are one composition of the
  same operations, so the equation is closed by unfolding names only.
-/
import proofs.«147961_j2302102471104_1_alg».proof.Proof.Gen.KernelIdeal.Launch
import proofs.«147961_j2302102471104_1_alg».proof.Proof.RefReadP
import Idealize.ShloMosaic.Lib.StableHlo.Run

noncomputable section

namespace Cert.KernelIdeal.Mid

open Cert.KernelIdeal Cert.KernelIdeal.Gen Idealize.ShloMosaic Idealize.ShloMosaic.TcCoe Idealize.SL.Sem Idealize.ShloMosaic.StableHlo

variable {F : FTy → Type} [FloatOps F]

/-- The contents of every buffer after the three stretches of host operations between the second and the
    third region, from the contents `X` the second region leaves. -/
abbrev afterMid (X : Valuation τ sig (Elt F)) : Valuation τ sig (Elt F) :=
  StableHlo.after (hostOps2_2 (F := F)) (StableHlo.after (hostOps2_1 (F := F)) (StableHlo.after (hostOps2 (F := F)) X))

set_option maxRecDepth 16384 in
set_option maxHeartbeats 40000000 in
/-- The neighbourhood sum: where the first region's product array holds the reference's product, the buffer the
    last region reads first holds the reference's normalised, biased neighbourhood sum. -/
theorem mid_gcn (X : Valuation τ sig (Elt F))
    (a0 : (⟨Cert.ReferenceIdeal.S100000x128, .f32⟩ : BufTy).Contents (Elt F))
    (a2 : (⟨Cert.ReferenceIdeal.S128x128, .f32⟩ : BufTy).Contents (Elt F))
    (a3 : (⟨Cert.ReferenceIdeal.S128, .f32⟩ : BufTy).Contents (Elt F))
    (a8 : (⟨Cert.ReferenceIdeal.S2x1600000, .i32⟩ : BufTy).Contents (Elt F))
    (h0 : X (Proc.devRef .tc main_v2_0) = Cert.ReferenceIdeal.Read.val_main_v0 (F := F) a0 a2)
    (h3 : X (Proc.devRef .tc main_arg3) = a3)
    (h8 : X (Proc.devRef .tc main_arg8) = a8) :
    afterMid X (Proc.devRef .tc main_v49) = Cert.ReferenceIdeal.Read.val_main_v46 (F := F) a0 a2 a3 a8 := by
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [h0, h3, h8]
  rfl

set_option maxRecDepth 16384 in
set_option maxHeartbeats 40000000 in
/-- The per-protein mean: where the second region's output holds the reference's biased product, the buffer the
    last region reads second holds the reference's mean of the gathered rows. -/
theorem mid_dti (X : Valuation τ sig (Elt F))
    (a1 : (⟨Cert.ReferenceIdeal.S20000x128, .f32⟩ : BufTy).Contents (Elt F))
    (a4 : (⟨Cert.ReferenceIdeal.S128x128, .f32⟩ : BufTy).Contents (Elt F))
    (a5 : (⟨Cert.ReferenceIdeal.S128, .f32⟩ : BufTy).Contents (Elt F))
    (a9 a10 : (⟨Cert.ReferenceIdeal.S800000, .i32⟩ : BufTy).Contents (Elt F))
    (h3 : X (Proc.devRef .tc main_v3) = Cert.ReferenceIdeal.Read.val_main_v50 (F := F) a1 a4 a5)
    (h9 : X (Proc.devRef .tc main_arg9) = a9)
    (h10 : X (Proc.devRef .tc main_arg10) = a10) :
    afterMid X (Proc.devRef .tc main_v68) = Cert.ReferenceIdeal.Read.val_main_v69 (F := F) a1 a4 a5 a9 a10 := by
  after_results_simp
  rw [h3, h9, h10]
  rfl

/-- No host operation between the regions writes the first region's second output. -/
theorem mid_keep (X : Valuation τ sig (Elt F)) :
    afterMid X (Proc.devRef .tc main_v2_1) = X (Proc.devRef .tc main_v2_1) := by
  after_results_simp

end Cert.KernelIdeal.Mid

end
-- ==== Proof.Spec.lean ====
/-
  The mathematics both programs compute, stated once over the extended reals.

  A row of the result is the layer norm of the sum of three [n,128] arrays plus a small constant:
  with y the row, mean = (∑ y) / 128, var = (∑ (y - mean)²) / 128, the entry at column q is
  (y q - mean) · (var + ε)^(-1/2). Two of the three summands come out of a gather/scatter chain that both
  programs apply alike and that is never opened here; what feeds that chain, and the third summand, are
  products of a [n,128] array with a [128,128] matrix, some with a bias row added: entry (p, q) is
  ∑ k, x (p, k) · w (k, q) (+ b q).
-/
import Idealize.ShloMosaic.PureOps.Ideal
import Idealize.ShloMosaic.Lib.ValueIdx

noncomputable section

namespace Cert.Spec

open Idealize.ShloMosaic Idealize.ShloMosaic.ValueIdx

/-- A rank-2 array of extended reals with literal extents. -/
abbrev Mat (r c : Nat) : Type := (⟨2, ![r, c]⟩ : Shape).Idx → EReal

/-- Entry (p, q) of the product of an [n,128] array with a [128,128] matrix. -/
def dotAt {n : Nat} (x : Mat n 128) (w : Mat 128 128) (p : Fin n) (q : Fin 128) : EReal :=
  ∑ k : Fin 128, x (ix2 p k) * w (ix2 k q)

/-- The divisor 128 of the two means, as the f32 word both programs carry. -/
def c128 : EReal := Ideal.ofBits .f32 0x43000000#32
/-- The constant added inside the square root, as the f32 word both programs carry. -/
def epsLn : EReal := Ideal.ofBits .f32 0x3727C5AC#32
/-- The constant added to the three summands, as the f32 word both programs carry. -/
def epsAdd : EReal := Ideal.ofBits .f32 0x358637BD#32

/-- The mean of a row of 128 entries. -/
def rowMean (y : Fin 128 → EReal) : EReal := Ideal.div (∑ k : Fin 128, y k) c128

/-- The mean of the squared deviations of a row from its mean. -/
def rowVar (y : Fin 128 → EReal) : EReal :=
  Ideal.div (∑ k : Fin 128, (y k - rowMean y) * (y k - rowMean y)) c128

/-- The layer norm of a row, at column q. -/
def lnAt (y : Fin 128 → EReal) (q : Fin 128) : EReal :=
  (y q - rowMean y) * Ideal.rsqrt (rowVar y + epsLn)

/-- Row p of ((a + b) + d) + the small constant. -/
def comb {n : Nat} (a b d : Mat n 128) (p : Fin n) : Fin 128 → EReal :=
  fun k => ((a (ix2 p k) + b (ix2 p k)) + d (ix2 p k)) + epsAdd

end Cert.Spec

end
-- ==== Proof.PayDot.lean ====
import proofs.«147961_j2302102471104_1_alg».proof.Proof.Gen.KernelIdeal.Skeleton
import proofs.«147961_j2302102471104_1_alg».proof.Proof.Spec
import Idealize.ShloMosaic.PureOps.Ideal.Laws
import Idealize.ShloMosaic.Lib.ValueIdx
import Idealize.ShloMosaic.Lib.Pipeline.Value
import Idealize.ShloMosaic.Lib.ValueLayout

/-!
The three matrix-product payloads of the first two regions, read at an index over the extended
reals. Each is the contraction `∑ k, x (p, k) * w (k, q)` of a row of the block with a column of
the weight matrix; the two biased ones add the bias row's entry at the column.
-/

noncomputable section

namespace Cert.KernelIdeal.PayDot

open Cert.KernelIdeal Cert.KernelIdeal.Gen Idealize.ShloMosaic Idealize.ShloMosaic.ValueIdx

/-- The left operand's row coordinate is the output's row coordinate. -/
theorem lhs_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column coordinate is the contraction coordinate. -/
theorem lhs_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c

/-- The right operand's row coordinate is the contraction coordinate. -/
theorem rhs_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c

/-- The right operand's column coordinate is the output's column coordinate. -/
theorem rhs_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product with a zero accumulator, read at `(p, q)`, is the contraction over the 128 columns. -/
theorem matmul_zero_at (x : FVec Ideal S2000x128 .bf16) (w : FVec Ideal S128x128 .bf16) (p : Fin 2000) (q : Fin 128) :
    FloatOps.matmul dot_S2000x128_S128x128_S2000x128_1_0_0_1_n_n none x w (constant S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- The unbiased product of the first region at `(p, q)`. -/
theorem pay_dot (x : Vec Ideal S2000x128 .f32) (w : Vec Ideal S128x128 .f32) (p : Fin 2000) (q : Fin 128) :
    k0_pay2 (F := Ideal) x w (ix2 p q) = Cert.Spec.dotAt (n := 2000) x w p q := by
  unfold k0_pay2 k0_pay1
  exact matmul_zero_at _ _ p q

/-- The biased product of the first region at `(p, q)`. -/
theorem pay_dot_bias0 (x : Vec Ideal S2000x128 .f32) (w : Vec Ideal S128x128 .f32) (b : Vec Ideal S1x128 .f32)
    (p : Fin 2000) (q : Fin 128) :
    k0_pay3 (F := Ideal) x w b (ix2 p q) = Cert.Spec.dotAt (n := 2000) x w p q + b (ix2 (0 : Fin 1) q) := by
  unfold k0_pay3 k0_pay1
  refine (Ideal.addf_def (φ := .f32) _ _).trans ?_
  refine congrArg₂ (· + ·) (matmul_zero_at _ _ p q) ?_
  rw [shapeCast_self]
  exact broadcastTo_1b_ab_apply b broadcasts_S1x128_S2000x128 p q

/-- The biased product of the second region at `(p, q)`. -/
theorem pay_dot_bias1 (x : Vec Ideal S2000x128 .f32) (w : Vec Ideal S128x128 .f32) (b : Vec Ideal S1x128 .f32)
    (p : Fin 2000) (q : Fin 128) :
    k1_pay1 (F := Ideal) x w b (ix2 p q) = Cert.Spec.dotAt (n := 2000) x w p q + b (ix2 (0 : Fin 1) q) := by
  unfold k1_pay1
  refine (Ideal.addf_def (φ := .f32) _ _).trans ?_
  refine congrArg₂ (· + ·) (matmul_zero_at _ _ p q) ?_
  rw [shapeCast_self]
  exact broadcastTo_1b_ab_apply b broadcasts_S1x128_S2000x128 p q

end Cert.KernelIdeal.PayDot
-- ==== Proof.PayNorm.lean ====
import proofs.«147961_j2302102471104_1_alg».proof.Proof.Gen.KernelIdeal.Skeleton
import proofs.«147961_j2302102471104_1_alg».proof.Proof.Spec
import Idealize.ShloMosaic.PureOps.Ideal.Laws
import Idealize.ShloMosaic.Lib.ValueIdx
import Idealize.ShloMosaic.Lib.Pipeline.Value
import Idealize.ShloMosaic.Lib.ValueLayout

/-!
  The layer-norm payload of the third region, read at an index over the extended reals.

  With y the row p of ((a + b) + d) + ε₀, the payload at (p, q) is
  (y q - mean) · rsqrt (var + ε), where mean = (∑ y) / 128 and var = (∑ (y - mean)²) / 128.
  The lane sums are sums over the 128 columns; the keepdims columns [2000] → [2000, 1] → [2000, 128]
  read at (p, q) are the vector at p.
-/

noncomputable section

namespace Cert.KernelIdeal.PayNorm

open Cert.KernelIdeal Cert.KernelIdeal.Gen Idealize.ShloMosaic Idealize.ShloMosaic.ValueIdx

/-! ## The layout steps at an index -/

/-- A lane sum: the reduction of a [2000, 128] array over its columns, at row p, is the sum of the row. -/
theorem laneSum (v : FVec Ideal S2000x128 .f32) (p : Fin 2000) :
    multiReduction (F := Ideal) .add [1] S2000 v 0x00000000#32 reduces_S2000x128_S2000 (.inl rfl) rfl (ix1 p)
      = ∑ k : Fin 128, v (ix2 p k) := by
  refine (Ideal.multiReduction_add_single v 0x00000000#32 reduces_S2000x128_S2000 _ _ (ix1 p)).trans ?_
  refine Finset.sum_congr rfl fun k _ => congrArg v ?_
  exact funext fun a => Fin.ext (by match a with | ⟨0, _⟩ => rfl | ⟨1, _⟩ => rfl)

/-- A [2000] vector cast to a [2000, 1] column reads, at (p, u), the vector at p. -/
theorem col_apply {α : Type} (s : S2000.Idx → α) (p : Fin 2000) (u : Fin 1) :
    shapeCast S2000x1 s shapeCasts_S2000_S2000x1 (ix2 p u) = s (ix1 p) :=
  shapeCast_apply s shapeCasts_S2000_S2000x1 _ _ (by
    have hu : u.val = 0 := by omega
    rw [Shape.rowMajor_val_two, Shape.rowMajor_val_one]
    show p.val = p.val * 1 + u.val
    rw [hu, Nat.mul_one, Nat.add_zero])

/-- A [2000, 1] column broadcast to [2000, 128] reads, at (p, q), the column at p. -/
theorem bcast_apply {α : Type} (c : S2000x1.Idx → α) (p : Fin 2000) (q : Fin 128) :
    broadcastTo S2000x128 c broadcasts_S2000x1_S2000x128 (ix2 p q) = c (ix2 p (0 : Fin 1)) := by
  refine broadcastTo_apply c broadcasts_S2000x1_S2000x128 (ix2 p q) (ix2 p (0 : Fin 1)) fun ax => ?_
  match ax with
  | ⟨0, _⟩ => rfl
  | ⟨1, _⟩ => rfl

/-! ## The payload's stages over a variable array -/

/-- The three summands and the small constant, added as the payload adds them. -/
def rowMat (a b d : Vec Ideal S2000x128 .f32) : FVec Ideal S2000x128 .f32 :=
  addf (addf (addf (shapeCast S2000x128 a shapeCasts_S2000x128_S2000x128) (shapeCast S2000x128 b shapeCasts_S2000x128_S2000x128))
    (shapeCast S2000x128 d shapeCasts_S2000x128_S2000x128))
    (broadcast S2000x128 (Scalar.ofBits (F := Ideal) .f32 0x358637BD#32))

/-- The column of row means. -/
def meanCol (y : FVec Ideal S2000x128 .f32) : FVec Ideal S2000x1 .f32 :=
  divf (shapeCast S2000x1 (multiReduction (F := Ideal) .add [1] S2000 y 0x00000000#32 reduces_S2000x128_S2000 (.inl rfl) rfl)
      shapeCasts_S2000_S2000x1)
    (broadcast S2000x1 (Scalar.ofBits (F := Ideal) .f32 0x43000000#32))

/-- The deviations from the row means. -/
def devMat (y : FVec Ideal S2000x128 .f32) : FVec Ideal S2000x128 .f32 :=
  subf y (broadcastTo S2000x128 (meanCol y) broadcasts_S2000x1_S2000x128)

/-- The column of row variances. -/
def varCol (y : FVec Ideal S2000x128 .f32) : FVec Ideal S2000x1 .f32 :=
  divf (shapeCast S2000x1
      (multiReduction (F := Ideal) .add [1] S2000 (mulf (devMat y) (devMat y)) 0x00000000#32 reduces_S2000x128_S2000 (.inl rfl) rfl)
      shapeCasts_S2000_S2000x1)
    (broadcast S2000x1 (Scalar.ofBits (F := Ideal) .f32 0x43000000#32))

/-- The normalised array. -/
def normMat (y : FVec Ideal S2000x128 .f32) : FVec Ideal S2000x128 .f32 :=
  mulf (devMat y)
    (broadcastTo S2000x128 (rsqrt (addf (varCol y) (broadcast S2000x1 (Scalar.ofBits (F := Ideal) .f32 0x3727C5AC#32))))
      broadcasts_S2000x1_S2000x128)

/-- The combined row at (p, k). -/
theorem rowMat_apply (a b d : Vec Ideal S2000x128 .f32) (p : Fin 2000) (k : Fin 128) :
    rowMat a b d (ix2 p k) = Cert.Spec.comb (n := 2000) a b d p k := by
  unfold rowMat
  rw [shapeCast_self, shapeCast_self, shapeCast_self]
  rfl

/-- The mean column at row p is the mean of the row. -/
theorem meanCol_apply (y : FVec Ideal S2000x128 .f32) (p : Fin 2000) :
    meanCol y (ix2 p (0 : Fin 1)) = Cert.Spec.rowMean (fun k => y (ix2 p k)) := by
  show Ideal.div (shapeCast S2000x1 _ shapeCasts_S2000_S2000x1 (ix2 p (0 : Fin 1))) _ = _
  rw [col_apply, laneSum]
  rfl

/-- A deviation at (p, k). -/
theorem devMat_apply (y : FVec Ideal S2000x128 .f32) (p : Fin 2000) (k : Fin 128) :
    devMat y (ix2 p k) = y (ix2 p k) - Cert.Spec.rowMean (fun k => y (ix2 p k)) := by
  show y (ix2 p k) - broadcastTo S2000x128 (meanCol y) broadcasts_S2000x1_S2000x128 (ix2 p k) = _
  rw [bcast_apply, meanCol_apply]

/-- The variance column at row p is the variance of the row. -/
theorem varCol_apply (y : FVec Ideal S2000x128 .f32) (p : Fin 2000) :
    varCol y (ix2 p (0 : Fin 1)) = Cert.Spec.rowVar (fun k => y (ix2 p k)) := by
  show Ideal.div (shapeCast S2000x1 _ shapeCasts_S2000_S2000x1 (ix2 p (0 : Fin 1))) _ = _
  rw [col_apply, laneSum]
  show Ideal.div (∑ k : Fin 128, devMat y (ix2 p k) * devMat y (ix2 p k)) _ = _
  simp only [devMat_apply]
  rfl

/-- The normalised array at (p, q) is the layer norm of the row at q. -/
theorem normMat_apply (y : FVec Ideal S2000x128 .f32) (p : Fin 2000) (q : Fin 128) :
    normMat y (ix2 p q) = Cert.Spec.lnAt (fun k => y (ix2 p k)) q := by
  show devMat y (ix2 p q) * broadcastTo S2000x128 _ broadcasts_S2000x1_S2000x128 (ix2 p q) = _
  rw [bcast_apply, devMat_apply]
  show _ * Ideal.rsqrt (varCol y (ix2 p (0 : Fin 1)) + _) = _
  rw [varCol_apply]
  rfl

/-! ## The payload -/

/-- The payload is the normalised array of the combined rows. -/
theorem k2_pay1_eq (a b d : Vec Ideal S2000x128 .f32) : k2_pay1 (F := Ideal) a b d = normMat (rowMat a b d) := rfl

/-- The layer-norm payload at (p, q): the layer norm of row p of ((a + b) + d) + the small constant, at q. -/
theorem pay_norm (a b d : Vec Ideal S2000x128 .f32) (p : Fin 2000) (q : Fin 128) :
    k2_pay1 (F := Ideal) a b d (ix2 p q) = Cert.Spec.lnAt (Cert.Spec.comb (n := 2000) a b d p) q := by
  rw [k2_pay1_eq, normMat_apply]
  exact congrArg (fun r => Cert.Spec.lnAt r q) (funext fun k => rowMat_apply a b d p k)

end Cert.KernelIdeal.PayNorm

end
-- ==== Proof.Arr01.lean ====
/-
  From blocks to arrays, regions 0 and 1: what the output arrays of the first two kernels hold when their regions
  end, as one function of the arrays the region finds on entry.

  Both regions walk a one-axis grid; point t handles rows 2000·t … 2000·t + 1999 of an [n,128] array, while the
  [128,128] matrix and the [1,128] bias row are read whole at every point. Entry (p, q) of a point's output block
  is the product entry ∑ k, x (p, k) · w (k, q) (+ b q) of the point's input block x; row p of that block is row
  2000·t + p of the array, so the block entry is the array's product entry at row 2000·t + p. The output blocks
  tile the output array (row r lies in the block of point r / 2000), so the array ends holding the product.
-/
import proofs.«147961_j2302102471104_1_alg».proof.Proof.Gen.KernelIdeal.Frame
import proofs.«147961_j2302102471104_1_alg».proof.Proof.Spec
import Idealize.ShloMosaic.Lib.Pipeline.Value
import Idealize.ShloMosaic.Lib.ValueIdx

set_option maxRecDepth 16384

noncomputable section

namespace Cert.KernelIdeal.Arr

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer rectangle, as the constant function. -/
theorem zero_offsets : (![0, 0] : Fin 2 → Nat) = fun _ => 0 := funext fun a => by fin_cases a <;> rfl

/-- A product entry only looks at one row of the left factor and one column of the right factor: if row p of x
    is row r of A and column q of w is column q' of W, the entries agree. -/
theorem dotAt_congr {n m : Nat} (x : Cert.Spec.Mat n 128) (w : Cert.Spec.Mat 128 128) (A : Cert.Spec.Mat m 128)
    (W : Cert.Spec.Mat 128 128) (p : Fin n) (q : Fin 128) (r : Fin m) (q' : Fin 128)
    (hx : ∀ k : Fin 128, x (ix2 p k) = A (ix2 r k)) (hw : ∀ k : Fin 128, w (ix2 k q) = W (ix2 k q')) :
    Cert.Spec.dotAt x w p q = Cert.Spec.dotAt A W r q' := by
  unfold Cert.Spec.dotAt
  exact Finset.sum_congr rfl fun k _ => by rw [hx k, hw k]

/-! ## Region 0 -/

/-- The block indices of region 0's windows, decided over the grid: the row-blocked windows (0, 4, 5) sit at block
    (t, 0); the matrices and the bias row (1, 2, 3) at block (0, 0). -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Every row block of the output is some point's. -/
theorem blockOnto0_4 : ∀ (q0 : Fin 50) (q1 : Fin 1), ∃ t : Fin cfg0.N, win0_4.index t = ![q0.val + 0, q1.val + 0] :=
  (by decide +kernel : ∀ (q0 : Fin 50) (q1 : Fin 1), ∃ t : Fin grid0.N, win0_4.index t = ![q0.val + 0, q1.val + 0])

/-- Window 0's block at point t is rows 2000·t … 2000·t + 1999 of the array. -/
theorem read0_0 (c : Dev nD) (t : Fin cfg0.N) (y : S2000x128.Idx) (i : S100000x128.Idx)
    (h0 : (i 0).val = 2000 * t.val + (y 0).val) (h1 : (i 1).val = (y 1).val) :
    (iblk0 (F := Ideal) V c 0 t : Vec Ideal S2000x128 .f32) y = (V c main_arg0 : S100000x128.Idx → Elt Ideal .f32) i := by
  obtain ⟨e0, e1, -⟩ := blockIdx0 t
  unfold iblk0
  rw [View.read_apply]
  show V c main_arg0 (((cfg0.win 0).blk t).view.emb y) = V c main_arg0 i
  congr 1
  funext a
  apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- Window 1's block at every point is the whole matrix. -/
theorem read0_1 (c : Dev nD) (t : Fin cfg0.N) (y : S128x128.Idx) :
    (iblk0 (F := Ideal) V c 1 t : Vec Ideal S128x128 .f32) y = (V c main_arg2 : S128x128.Idx → Elt Ideal .f32) y := by
  obtain ⟨-, -, e0, e1, -⟩ := blockIdx0 t
  unfold iblk0
  rw [View.read_apply]
  show V c main_arg2 (((cfg0.win 1).blk t).view.emb y) = V c main_arg2 y
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What window 4's array ends holding: the product of the row array with the first matrix. -/
abbrev prod0_4 (c : Dev nD) : S100000x128.Idx → Elt Ideal .f32 :=
  fun i => Cert.Spec.dotAt (n := 100000) (V c main_arg0) (V c main_arg2) (i 0) (i 1)

/-- What point t writes back through window 4 is block t of the product. -/
theorem flushed0_4
    (hpay : ∀ (x : Vec Ideal S2000x128 .f32) (w : Vec Ideal S128x128 .f32) (p : Fin 2000) (q : Fin 128),
      k0_pay2 (F := Ideal) x w (ix2 p q) = Cert.Spec.dotAt (n := 2000) x w p q)
    (c : Dev nD) (t : Fin cfg0.N) :
    (dat0 (F := Ideal) V c).flushed 4 t = ((cfg0.win 4).blk t).view.read (Elt Ideal) (prod0_4 V c) := by
  show (cfg0.win 4).cut (grid0.coords t) ((dat0 (F := Ideal) V c).after 4 t) = _
  rw [after0_4]
  unfold out0_4
  rw [View.canon_unit_zero zero_offsets]
  simp only [View.ld_unit_zero (S := S2000x128) zero_offsets, View.ld_unit_zero (S := S128x128) zero_offsets]
  obtain ⟨-, -, -, -, -, -, -, -, e0, e1, -⟩ := blockIdx0 t
  funext j
  obtain ⟨p, q, rfl⟩ : ∃ (p : Fin 2000) (q : Fin 128), j = ix2 p q := ⟨j 0, j 1, eq_ix2 j⟩
  show k0_pay2 (F := Ideal) (iblk0 (F := Ideal) V c 0 t) (iblk0 (F := Ideal) V c 1 t) (ix2 p q)
      = prod0_4 V c (((cfg0.win 4).blk t).view.emb (ix2 p q))
  refine (hpay _ _ p q).trans (dotAt_congr _ _ _ _ p q _ _ (fun k => ?_) (fun k => ?_))
  · refine read0_0 V c t (ix2 p k) _ ?_ rfl
    show win0_4.index t (0 : Fin 2) * 2000 + 1 * p.val = 2000 * t.val + p.val
    omega
  · refine (read0_1 V c t (ix2 k q)).trans ?_
    congr 1
    funext a
    apply Fin.ext
    match a with
    | ⟨0, _⟩ => rfl
    | ⟨1, _⟩ => show q.val = win0_4.index t (1 : Fin 2) * 128 + 1 * q.val; omega

/-- An index of the array is in point t's block iff each coordinate is in the block's range on its axis. -/
theorem mem_blk0_4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v2_0).slice (win0_4.rect t)).set ↔ _
  rw [View.set_slice_whole, Rect.mem_set_unit]
  exact Iff.rfl

/-- The output's blocks tile its array: row r lies in the block of point r / 2000. -/
theorem covered0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := blockOnto0_4 ⟨(i 0).val / 2000, by omega⟩ ⟨(i 1).val / 128, by omega⟩
  have q0 : win0_4.index t (0 : Fin 2) = (i 0).val / 2000 + 0 := congrFun ht 0
  have q1 : win0_4.index t (1 : Fin 2) = (i 1).val / 128 + 0 := congrFun ht 1
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- Region 0's first output array ends holding the product of the row array with the first matrix. -/
theorem arr0_4
    (hpay : ∀ (x : Vec Ideal S2000x128 .f32) (w : Vec Ideal S128x128 .f32) (p : Fin 2000) (q : Fin 128),
      k0_pay2 (F := Ideal) x w (ix2 p q) = Cert.Spec.dotAt (n := 2000) x w p q)
    (c : Dev nD) :
    (dat0 (F := Ideal) V c).arrAt 4 cfg0.N = fun (i : S100000x128.Idx) =>
      Cert.Spec.dotAt (n := 100000) (V c main_arg0) (V c main_arg2) (i 0) (i 1) :=
  (dat0 (F := Ideal) V c).arrAt_eq_of_cover 4 (prod0_4 V c) (fun t _ => flushed0_4 V hpay c t) covered0_4

/-! ### Window 5: the product with the second matrix, plus the bias row -/

/-- Every row block of the second output is some point's. -/
theorem blockOnto0_5 : ∀ (q0 : Fin 50) (q1 : Fin 1), ∃ t : Fin cfg0.N, win0_5.index t = ![q0.val + 0, q1.val + 0] :=
  (by decide +kernel : ∀ (q0 : Fin 50) (q1 : Fin 1), ∃ t : Fin grid0.N, win0_5.index t = ![q0.val + 0, q1.val + 0])

/-- Window 2's block at every point is the whole matrix. -/
theorem read0_2 (c : Dev nD) (t : Fin cfg0.N) (y : S128x128.Idx) :
    (iblk0 (F := Ideal) V c 2 t : Vec Ideal S128x128 .f32) y = (V c main_arg6 : S128x128.Idx → Elt Ideal .f32) y := by
  obtain ⟨-, -, -, -, e0, e1, -⟩ := blockIdx0 t
  unfold iblk0
  rw [View.read_apply]
  show V c main_arg6 (((cfg0.win 2).blk t).view.emb y) = V c main_arg6 y
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block at every point is the whole bias row. -/
theorem read0_3 (c : Dev nD) (t : Fin cfg0.N) (y : S1x128.Idx) :
    (iblk0 (F := Ideal) V c 3 t : Vec Ideal S1x128 .f32) y = (V c main_v0 : S1x128.Idx → Elt Ideal .f32) y := by
  obtain ⟨-, -, -, -, -, -, e0, e1, -⟩ := blockIdx0 t
  unfold iblk0
  rw [View.read_apply]
  show V c main_v0 (((cfg0.win 3).blk t).view.emb y) = V c main_v0 y
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- What window 5's array ends holding: the product of the row array with the second matrix, plus the bias row. -/
abbrev prod0_5 (c : Dev nD) : S100000x128.Idx → Elt Ideal .f32 :=
  fun i => Cert.Spec.dotAt (n := 100000) (V c main_arg0) (V c main_arg6) (i 0) (i 1)
    + V c main_v0 (ix2 (0 : Fin 1) (i 1))

/-- What point t writes back through window 5 is block t of that function. -/
theorem flushed0_5
    (hpay : ∀ (x : Vec Ideal S2000x128 .f32) (w : Vec Ideal S128x128 .f32) (b : Vec Ideal S1x128 .f32)
      (p : Fin 2000) (q : Fin 128),
      k0_pay3 (F := Ideal) x w b (ix2 p q) = Cert.Spec.dotAt (n := 2000) x w p q + b (ix2 (0 : Fin 1) q))
    (c : Dev nD) (t : Fin cfg0.N) :
    (dat0 (F := Ideal) V c).flushed 5 t = ((cfg0.win 5).blk t).view.read (Elt Ideal) (prod0_5 V c) := by
  show (cfg0.win 5).cut (grid0.coords t) ((dat0 (F := Ideal) V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, e0, e1⟩ := blockIdx0 t
  funext j
  obtain ⟨p, q, rfl⟩ : ∃ (p : Fin 2000) (q : Fin 128), j = ix2 p q := ⟨j 0, j 1, eq_ix2 j⟩
  show k0_pay3 (F := Ideal) (iblk0 (F := Ideal) V c 0 t) (iblk0 (F := Ideal) V c 2 t) (iblk0 (F := Ideal) V c 3 t) (ix2 p q)
      = prod0_5 V c (((cfg0.win 5).blk t).view.emb (ix2 p q))
  refine (hpay _ _ _ p q).trans (congrArg₂ (· + ·) (dotAt_congr _ _ _ _ p q _ _ (fun k => ?_) (fun k => ?_)) ?_)
  · refine read0_0 V c t (ix2 p k) _ ?_ rfl
    show win0_5.index t (0 : Fin 2) * 2000 + 1 * p.val = 2000 * t.val + p.val
    omega
  · refine (read0_2 V c t (ix2 k q)).trans ?_
    congr 1
    funext a
    apply Fin.ext
    match a with
    | ⟨0, _⟩ => rfl
    | ⟨1, _⟩ => show q.val = win0_5.index t (1 : Fin 2) * 128 + 1 * q.val; omega
  · refine (read0_3 V c t (ix2 (0 : Fin 1) q)).trans ?_
    congr 1
    funext a
    apply Fin.ext
    match a with
    | ⟨0, _⟩ => rfl
    | ⟨1, _⟩ => show q.val = win0_5.index t (1 : Fin 2) * 128 + 1 * q.val; omega

/-- An index of the array is in point t's block iff each coordinate is in the block's range on its axis. -/
theorem mem_blk0_5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v2_1).slice (win0_5.rect t)).set ↔ _
  rw [View.set_slice_whole, Rect.mem_set_unit]
  exact Iff.rfl

/-- The second output's blocks tile its array: row r lies in the block of point r / 2000. -/
theorem covered0_5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := blockOnto0_5 ⟨(i 0).val / 2000, by omega⟩ ⟨(i 1).val / 128, by omega⟩
  have q0 : win0_5.index t (0 : Fin 2) = (i 0).val / 2000 + 0 := congrFun ht 0
  have q1 : win0_5.index t (1 : Fin 2) = (i 1).val / 128 + 0 := congrFun ht 1
  refine ⟨t, flush0_5 t, ?_⟩
  rw [mem_blk0_5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- Region 0's second output array ends holding the product of the row array with the second matrix, plus the
    bias row. -/
theorem arr0_5
    (hpay : ∀ (x : Vec Ideal S2000x128 .f32) (w : Vec Ideal S128x128 .f32) (b : Vec Ideal S1x128 .f32)
      (p : Fin 2000) (q : Fin 128),
      k0_pay3 (F := Ideal) x w b (ix2 p q) = Cert.Spec.dotAt (n := 2000) x w p q + b (ix2 (0 : Fin 1) q))
    (c : Dev nD) :
    (dat0 (F := Ideal) V c).arrAt 5 cfg0.N = fun (i : S100000x128.Idx) =>
      Cert.Spec.dotAt (n := 100000) (V c main_arg0) (V c main_arg6) (i 0) (i 1)
        + V c main_v0 (ix2 (0 : Fin 1) (i 1)) :=
  (dat0 (F := Ideal) V c).arrAt_eq_of_cover 5 (prod0_5 V c) (fun t _ => flushed0_5 V hpay c t) covered0_5

/-! ## Region 1 -/

/-- The block indices of region 1's windows, decided over the grid: the row-blocked windows (0, 3) sit at block
    (t, 0); the matrix and the bias row (1, 2) at block (0, 0). -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block of the output is some point's. -/
theorem blockOnto1_3 : ∀ (q0 : Fin 10) (q1 : Fin 1), ∃ t : Fin cfg1.N, win1_3.index t = ![q0.val + 0, q1.val + 0] :=
  (by decide +kernel : ∀ (q0 : Fin 10) (q1 : Fin 1), ∃ t : Fin grid1.N, win1_3.index t = ![q0.val + 0, q1.val + 0])

/-- Window 0's block at point t is rows 2000·t … 2000·t + 1999 of the array. -/
theorem read1_0 (c : Dev nD) (t : Fin cfg1.N) (y : S2000x128.Idx) (i : S20000x128.Idx)
    (h0 : (i 0).val = 2000 * t.val + (y 0).val) (h1 : (i 1).val = (y 1).val) :
    (iblk1 (F := Ideal) V c 0 t : Vec Ideal S2000x128 .f32) y = (V c main_arg1 : S20000x128.Idx → Elt Ideal .f32) i := by
  obtain ⟨e0, e1, -⟩ := blockIdx1 t
  unfold iblk1
  rw [View.read_apply]
  show V c main_arg1 (((cfg1.win 0).blk t).view.emb y) = V c main_arg1 i
  congr 1
  funext a
  apply Fin.ext
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- Window 1's block at every point is the whole matrix. -/
theorem read1_1 (c : Dev nD) (t : Fin cfg1.N) (y : S128x128.Idx) :
    (iblk1 (F := Ideal) V c 1 t : Vec Ideal S128x128 .f32) y = (V c main_arg4 : S128x128.Idx → Elt Ideal .f32) y := by
  obtain ⟨-, -, e0, e1, -⟩ := blockIdx1 t
  unfold iblk1
  rw [View.read_apply]
  show V c main_arg4 (((cfg1.win 1).blk t).view.emb y) = V c main_arg4 y
  congr 1
  funext a
  apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Window 2's block at every point is the whole bias row. -/
theorem read1_2 (c : Dev nD) (t : Fin cfg1.N) (y : S1x128.Idx) :
    (iblk1 (F := Ideal) V c 2 t : Vec Ideal S1x128 .f32) y = (V c main_v1 : S1x128.Idx → Elt Ideal .f32) y := by
  obtain ⟨-, -, -, -, e0, e1, -⟩ := blockIdx1 t
  unfold iblk1
  rw [View.read_apply]
  show V c main_v1 (((cfg1.win 2).blk t).view.emb y) = V c main_v1 y
  congr 1
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What window 3's array ends holding: the product of the row array with the matrix, plus the bias row. -/
abbrev prod1_3 (c : Dev nD) : S20000x128.Idx → Elt Ideal .f32 :=
  fun i => Cert.Spec.dotAt (n := 20000) (V c main_arg1) (V c main_arg4) (i 0) (i 1)
    + V c main_v1 (ix2 (0 : Fin 1) (i 1))

/-- What point t writes back through window 3 is block t of that function. -/
theorem flushed1_3
    (hpay : ∀ (x : Vec Ideal S2000x128 .f32) (w : Vec Ideal S128x128 .f32) (b : Vec Ideal S1x128 .f32)
      (p : Fin 2000) (q : Fin 128),
      k1_pay1 (F := Ideal) x w b (ix2 p q) = Cert.Spec.dotAt (n := 2000) x w p q + b (ix2 (0 : Fin 1) q))
    (c : Dev nD) (t : Fin cfg1.N) :
    (dat1 (F := Ideal) V c).flushed 3 t = ((cfg1.win 3).blk t).view.read (Elt Ideal) (prod1_3 V c) := by
  show (cfg1.win 3).cut (grid1.coords t) ((dat1 (F := Ideal) V c).after 3 t) = _
  rw [after1_3]
  unfold out1_3
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, e0, e1⟩ := blockIdx1 t
  funext j
  obtain ⟨p, q, rfl⟩ : ∃ (p : Fin 2000) (q : Fin 128), j = ix2 p q := ⟨j 0, j 1, eq_ix2 j⟩
  show k1_pay1 (F := Ideal) (iblk1 (F := Ideal) V c 0 t) (iblk1 (F := Ideal) V c 1 t) (iblk1 (F := Ideal) V c 2 t) (ix2 p q)
      = prod1_3 V c (((cfg1.win 3).blk t).view.emb (ix2 p q))
  refine (hpay _ _ _ p q).trans (congrArg₂ (· + ·) (dotAt_congr _ _ _ _ p q _ _ (fun k => ?_) (fun k => ?_)) ?_)
  · refine read1_0 V c t (ix2 p k) _ ?_ rfl
    show win1_3.index t (0 : Fin 2) * 2000 + 1 * p.val = 2000 * t.val + p.val
    omega
  · refine (read1_1 V c t (ix2 k q)).trans ?_
    congr 1
    funext a
    apply Fin.ext
    match a with
    | ⟨0, _⟩ => rfl
    | ⟨1, _⟩ => show q.val = win1_3.index t (1 : Fin 2) * 128 + 1 * q.val; omega
  · refine (read1_2 V c t (ix2 (0 : Fin 1) q)).trans ?_
    congr 1
    funext a
    apply Fin.ext
    match a with
    | ⟨0, _⟩ => rfl
    | ⟨1, _⟩ => show q.val = win1_3.index t (1 : Fin 2) * 128 + 1 * q.val; omega

/-- An index of the array is in point t's block iff each coordinate is in the block's range on its axis. -/
theorem mem_blk1_3 (t : Fin cfg1.N) (i : S20000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v3).slice (win1_3.rect t)).set ↔ _
  rw [View.set_slice_whole, Rect.mem_set_unit]
  exact Iff.rfl

/-- The output's blocks tile its array: row r lies in the block of point r / 2000. -/
theorem covered1_3 (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  obtain ⟨t, ht⟩ := blockOnto1_3 ⟨(i 0).val / 2000, by omega⟩ ⟨(i 1).val / 128, by omega⟩
  have q0 : win1_3.index t (0 : Fin 2) = (i 0).val / 2000 + 0 := congrFun ht 0
  have q1 : win1_3.index t (1 : Fin 2) = (i 1).val / 128 + 0 := congrFun ht 1
  refine ⟨t, flush1_3 t, ?_⟩
  rw [mem_blk1_3]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- Region 1's output array ends holding the product of the row array with the matrix, plus the bias row. -/
theorem arr1_3
    (hpay : ∀ (x : Vec Ideal S2000x128 .f32) (w : Vec Ideal S128x128 .f32) (b : Vec Ideal S1x128 .f32)
      (p : Fin 2000) (q : Fin 128),
      k1_pay1 (F := Ideal) x w b (ix2 p q) = Cert.Spec.dotAt (n := 2000) x w p q + b (ix2 (0 : Fin 1) q))
    (c : Dev nD) :
    (dat1 (F := Ideal) V c).arrAt 3 cfg1.N = fun (i : S20000x128.Idx) =>
      Cert.Spec.dotAt (n := 20000) (V c main_arg1) (V c main_arg4) (i 0) (i 1)
        + V c main_v1 (ix2 (0 : Fin 1) (i 1)) :=
  (dat1 (F := Ideal) V c).arrAt_eq_of_cover 3 (prod1_3 V c) (fun t _ => flushed1_3 V hpay c t) covered1_3

end Cert.KernelIdeal.Arr

end
-- ==== Proof.Arr2.lean ====
/-
  What the output array of the fused add + layer norm region holds after the region, as one function of the
  region's entry contents: every row of the output is the layer norm of the same row of the sum of the three
  input arrays plus the small constant. The region's grid has one axis of 50 points; point t handles the rows
  2000·t … 2000·t + 1999 of all four arrays, all 128 columns.
-/
import proofs.«147961_j2302102471104_1_alg».proof.Proof.Gen.KernelIdeal.Frame
import proofs.«147961_j2302102471104_1_alg».proof.Proof.Spec
import Idealize.ShloMosaic.Lib.Pipeline.Value
import Idealize.ShloMosaic.Lib.ValueIdx

set_option maxRecDepth 16384

noncomputable section

namespace Cert.KernelIdeal.Arr

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's one store starts at the origin of its block. -/
theorem origin2 : (![0, 0] : Fin 2 → Nat) = fun _ => 0 := funext fun a => by fin_cases a <;> rfl

/-- The four index maps, decided over the grid: at point t every window's block is block t along the rows and
    block 0 along the columns. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The layer norm of row r of the combined arrays, at every index of the output array. -/
abbrev lnComb (A B D : Cert.Spec.Mat 100000 128) : S100000x128.Idx → EReal :=
  fun i => Cert.Spec.lnAt (Cert.Spec.comb (n := 100000) A B D (i 0)) (i 1)

/-- Entry (p, k) of the first summand's block at point t is entry (2000·t + p, k) of its array. -/
theorem blk2_0_apply (c : Dev nD) (t : Fin cfg2.N) (p : Fin 2000) (k : Fin 128) (r : Fin 100000)
    (hr : r.val = 2000 * t.val + p.val) :
    iblk2 V c 0 t (ix2 p k) = V c main_v49 (ix2 r k) := by
  show V c main_v49 (((cfg2.win 0).blk t).view.emb (ix2 p k)) = V c main_v49 (ix2 r k)
  refine congrArg _ ?_
  obtain ⟨e0, e1, -⟩ := blockIndex2 t
  funext a; apply Fin.ext
  match a with
  | ⟨0, _⟩ => show win2_0.index t (0 : Fin 2) * 2000 + 1 * p.val = r.val; omega
  | ⟨1, _⟩ => show win2_0.index t (1 : Fin 2) * 128 + 1 * k.val = k.val; omega

/-- Entry (p, k) of the second summand's block at point t is entry (2000·t + p, k) of its array. -/
theorem blk2_1_apply (c : Dev nD) (t : Fin cfg2.N) (p : Fin 2000) (k : Fin 128) (r : Fin 100000)
    (hr : r.val = 2000 * t.val + p.val) :
    iblk2 V c 1 t (ix2 p k) = V c main_v68 (ix2 r k) := by
  show V c main_v68 (((cfg2.win 1).blk t).view.emb (ix2 p k)) = V c main_v68 (ix2 r k)
  refine congrArg _ ?_
  obtain ⟨-, -, e0, e1, -⟩ := blockIndex2 t
  funext a; apply Fin.ext
  match a with
  | ⟨0, _⟩ => show win2_1.index t (0 : Fin 2) * 2000 + 1 * p.val = r.val; omega
  | ⟨1, _⟩ => show win2_1.index t (1 : Fin 2) * 128 + 1 * k.val = k.val; omega

/-- Entry (p, k) of the third summand's block at point t is entry (2000·t + p, k) of its array. -/
theorem blk2_2_apply (c : Dev nD) (t : Fin cfg2.N) (p : Fin 2000) (k : Fin 128) (r : Fin 100000)
    (hr : r.val = 2000 * t.val + p.val) :
    iblk2 V c 2 t (ix2 p k) = V c main_v2_1 (ix2 r k) := by
  show V c main_v2_1 (((cfg2.win 2).blk t).view.emb (ix2 p k)) = V c main_v2_1 (ix2 r k)
  refine congrArg _ ?_
  obtain ⟨-, -, -, -, e0, e1, -⟩ := blockIndex2 t
  funext a; apply Fin.ext
  match a with
  | ⟨0, _⟩ => show win2_2.index t (0 : Fin 2) * 2000 + 1 * p.val = r.val; omega
  | ⟨1, _⟩ => show win2_2.index t (1 : Fin 2) * 128 + 1 * k.val = k.val; omega

/-- Row p of the combined blocks is row r of the combined arrays once every block entry of row p is the arrays'
    entry of row r. -/
theorem comb_row_eq (a b d : Cert.Spec.Mat 2000 128) (A B D : Cert.Spec.Mat 100000 128) (p : Fin 2000) (r : Fin 100000)
    (ha : ∀ k : Fin 128, a (ix2 p k) = A (ix2 r k)) (hb : ∀ k : Fin 128, b (ix2 p k) = B (ix2 r k))
    (hd : ∀ k : Fin 128, d (ix2 p k) = D (ix2 r k)) :
    Cert.Spec.comb (n := 2000) a b d p = Cert.Spec.comb (n := 100000) A B D r := by
  funext k
  unfold Cert.Spec.comb
  rw [ha k, hb k, hd k]

/-- WHAT POINT t WRITES BACK is block t of the layer norm of the combined arrays as the region finds them. -/
theorem flushed_rows2
    (hpay : ∀ (a b d : Vec Ideal S2000x128 .f32) (p : Fin 2000) (q : Fin 128),
      k2_pay1 (F := Ideal) a b d (ix2 p q) = Cert.Spec.lnAt (Cert.Spec.comb (n := 2000) a b d p) q)
    (c : Dev nD) (t : Fin cfg2.N) :
    (dat2 (F := Ideal) V c).flushed 3 t
      = ((cfg2.win 3).blk t).view.read (Elt Ideal) (lnComb (V c main_v49) (V c main_v68) (V c main_v2_1)) := by
  show (cfg2.win 3).cut (grid2.coords t) ((dat2 (F := Ideal) V c).after 3 t) = _
  rw [after2_3]
  unfold out2_3
  rw [View.canon_unit_zero origin2]
  simp only [View.ld_unit_zero (S := S2000x128) origin2]
  funext j
  obtain ⟨p, q, rfl⟩ : ∃ (p : Fin 2000) (q : Fin 128), j = ix2 p q := ⟨j 0, j 1, eq_ix2 j⟩
  have hp : p.val < 2000 := p.isLt
  have ht : t.val < 50 := t.isLt
  obtain ⟨-, -, -, -, -, -, e0, e1⟩ := blockIndex2 t
  have hemb : ((cfg2.win 3).blk t).view.emb (ix2 p q)
      = (ix2 (⟨2000 * t.val + p.val, by omega⟩ : Fin 100000) q : S100000x128.Idx) := by
    funext a; apply Fin.ext
    match a with
    | ⟨0, _⟩ => show win2_3.index t (0 : Fin 2) * 2000 + 1 * p.val = 2000 * t.val + p.val; omega
    | ⟨1, _⟩ => show win2_3.index t (1 : Fin 2) * 128 + 1 * q.val = q.val; omega
  show k2_pay1 (F := Ideal) (iblk2 V c 0 t) (iblk2 V c 1 t) (iblk2 V c 2 t) (ix2 p q)
    = lnComb (V c main_v49) (V c main_v68) (V c main_v2_1) (((cfg2.win 3).blk t).view.emb (ix2 p q))
  rw [hemb]
  refine (hpay (iblk2 V c 0 t) (iblk2 V c 1 t) (iblk2 V c 2 t) p q).trans ?_
  show Cert.Spec.lnAt (Cert.Spec.comb (n := 2000) (iblk2 V c 0 t) (iblk2 V c 1 t) (iblk2 V c 2 t) p) q
    = Cert.Spec.lnAt (Cert.Spec.comb (n := 100000) (V c main_v49) (V c main_v68) (V c main_v2_1)
        (⟨2000 * t.val + p.val, by omega⟩ : Fin 100000)) q
  refine congrArg (fun y => Cert.Spec.lnAt y q) ?_
  exact comb_row_eq _ _ _ _ _ _ p _
    (fun k => blk2_0_apply V c t p k _ rfl) (fun k => blk2_1_apply V c t p k _ rfl)
    (fun k => blk2_2_apply V c t p k _ rfl)

/-- An index of the output array is in point t's block iff each coordinate is in the block's range on its axis. -/
theorem mem_rows2 (t : Fin cfg2.N) (i : S100000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v69).slice (win2_3.rect t)).set ↔ _
  rw [View.set_slice_whole, Rect.mem_set_unit]
  exact Iff.rfl

/-- Every index of the output array is in some point's block: row r is in the block of point r / 2000. -/
theorem rows_covered2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by show (i 0).val / 2000 < 50; omega⟩, rfl⟩
  obtain ⟨-, -, -, -, -, -, e0, e1⟩ := blockIndex2 t
  refine ⟨t, flush2_3 t, ?_⟩
  rw [mem_rows2]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

/-- THE OUTPUT ARRAY after the region: at every index (r, q), the layer norm at column q of row r of the sum of
    the three input arrays plus the small constant. -/
theorem arr2_3
    (hpay : ∀ (a b d : Vec Ideal S2000x128 .f32) (p : Fin 2000) (q : Fin 128),
      k2_pay1 (F := Ideal) a b d (ix2 p q) = Cert.Spec.lnAt (Cert.Spec.comb (n := 2000) a b d p) q)
    (c : Dev nD) :
    (dat2 (F := Ideal) V c).arrAt 3 cfg2.N
      = fun (i : S100000x128.Idx) => Cert.Spec.lnAt (Cert.Spec.comb (n := 100000) (V c main_v49) (V c main_v68) (V c main_v2_1) (i 0)) (i 1) :=
  (dat2 (F := Ideal) V c).arrAt_eq_of_cover 3 (lnComb (V c main_v49) (V c main_v68) (V c main_v2_1))
    (fun t _ => flushed_rows2 V hpay c t) rows_covered2

end Cert.KernelIdeal.Arr

end
-- ==== Proof.RefRead.lean ====
/-
  The reference program's stages read at an index, over the extended reals.

  Each product of an [n,128] array with a [128,128] matrix reads at (p, q) as ∑ k, x (p, k) · w (k, q), with the bias
  row's entry q added where there is one. The last stage reads at (p, q) as the layer norm, at column q, of row p of
  the three summands plus the small constant: the row's sum over its 128 columns divided by 128 is its mean, the sum of
  the squared deviations divided by 128 its variance, and the entry is (y q - mean) · (var + ε)^(-1/2).
-/
import proofs.«147961_j2302102471104_1_alg».proof.Proof.RefReadP
import proofs.«147961_j2302102471104_1_alg».proof.Proof.Spec
import Idealize.ShloMosaic.PureOps.Ideal.Laws
import Idealize.ShloMosaic.Lib.ValueIdx

noncomputable section

namespace Cert.ReferenceIdeal.RefRead

open Cert.ReferenceIdeal Cert.ReferenceIdeal.Read Idealize.ShloMosaic Idealize.ShloMosaic.ValueIdx

/-! ## Index equations: the composed index functions at an index given by its coordinates -/

theorem lidx_v0 (p : Fin 100000) (q k : Fin 128) : lidx_main_v0 (ix2 p q) k = ix2 p k :=
  funext fun a => Fin.ext (by match a with | ⟨0, _⟩ => rfl | ⟨1, _⟩ => rfl)
theorem ridx_v0 (p : Fin 100000) (q k : Fin 128) : ridx_main_v0 (ix2 p q) k = ix2 k q :=
  funext fun a => Fin.ext (by match a with | ⟨0, _⟩ => rfl | ⟨1, _⟩ => rfl)
theorem lidx_v47 (p : Fin 20000) (q k : Fin 128) : lidx_main_v47 (ix2 p q) k = ix2 p k :=
  funext fun a => Fin.ext (by match a with | ⟨0, _⟩ => rfl | ⟨1, _⟩ => rfl)
theorem ridx_v47 (p : Fin 20000) (q k : Fin 128) : ridx_main_v47 (ix2 p q) k = ix2 k q :=
  funext fun a => Fin.ext (by match a with | ⟨0, _⟩ => rfl | ⟨1, _⟩ => rfl)
theorem lidx_v70 (p : Fin 100000) (q k : Fin 128) : lidx_main_v70 (ix2 p q) k = ix2 p k :=
  funext fun a => Fin.ext (by match a with | ⟨0, _⟩ => rfl | ⟨1, _⟩ => rfl)
theorem ridx_v70 (p : Fin 100000) (q k : Fin 128) : ridx_main_v70 (ix2 p q) k = ix2 k q :=
  funext fun a => Fin.ext (by match a with | ⟨0, _⟩ => rfl | ⟨1, _⟩ => rfl)
/-- The bias row's index under the two broadcasts: column q. -/
theorem idx_v48_v49 (p : Fin 20000) (q : Fin 128) : idx_main_v48 (idx_main_v49 (ix2 p q)) = ix1 q :=
  funext fun a => Fin.ext (by match a with | ⟨0, _⟩ => rfl)
theorem idx_v71_v72 (p : Fin 100000) (q : Fin 128) : idx_main_v71 (idx_main_v72 (ix2 p q)) = ix1 q :=
  funext fun a => Fin.ext (by match a with | ⟨0, _⟩ => rfl)
/-- A row sum's operand index: row p, column k. -/
theorem idx_v78 (p : Fin 100000) (k : Fin 128) : idx_main_v78 (ix1 p) k = ix2 p k :=
  funext fun a => Fin.ext (by match a with | ⟨0, _⟩ => rfl | ⟨1, _⟩ => rfl)
theorem idx_v85 (p : Fin 100000) (k : Fin 128) : idx_main_v85 (ix1 p) k = ix2 p k :=
  funext fun a => Fin.ext (by match a with | ⟨0, _⟩ => rfl | ⟨1, _⟩ => rfl)
/-- A per-row scalar spread over the row: every column reads row p of the [n,1] array. -/
theorem idx_v79_v82 (p : Fin 100000) (q : Fin 128) : idx_main_v79 (idx_main_v82 (ix2 p q)) = ix1 p :=
  funext fun a => Fin.ext (by match a with | ⟨0, _⟩ => rfl)
theorem idx_v79_v89 (p : Fin 100000) (q : Fin 128) : idx_main_v79 (idx_main_v89 (ix2 p q)) = ix1 p :=
  funext fun a => Fin.ext (by match a with | ⟨0, _⟩ => rfl)
theorem idx_v86_v94 (p : Fin 100000) (q : Fin 128) : idx_main_v86 (idx_main_v94 (ix2 p q)) = ix1 p :=
  funext fun a => Fin.ext (by match a with | ⟨0, _⟩ => rfl)

/-! ## The three products -/

theorem v0_at (x0 : (⟨S100000x128, .f32⟩ : BufTy).Contents (Elt Ideal)) (x2 : (⟨S128x128, .f32⟩ : BufTy).Contents (Elt Ideal))
    (p : Fin 100000) (q : Fin 128) :
    val_main_v0 (F := Ideal) x0 x2 (ix2 p q) = Cert.Spec.dotAt (n := 100000) x0 x2 p q := by
  rw [val_main_v0_apply]
  unfold Cert.Spec.dotAt
  refine Finset.sum_congr rfl fun k _ => ?_
  rw [lidx_v0, ridx_v0]

theorem v50_at (x1 : (⟨S20000x128, .f32⟩ : BufTy).Contents (Elt Ideal)) (x4 : (⟨S128x128, .f32⟩ : BufTy).Contents (Elt Ideal))
    (x5 : (⟨S128, .f32⟩ : BufTy).Contents (Elt Ideal)) (p : Fin 20000) (q : Fin 128) :
    val_main_v50 (F := Ideal) x1 x4 x5 (ix2 p q) = Cert.Spec.dotAt (n := 20000) x1 x4 p q + x5 (ix1 q) := by
  rw [val_main_v50_apply, val_main_v47_apply, val_main_v49_apply, val_main_v48_apply, idx_v48_v49, Ideal.addf_def]
  unfold Cert.Spec.dotAt
  refine congrArg (· + x5 (ix1 q)) (Finset.sum_congr rfl fun k _ => ?_)
  rw [lidx_v47, ridx_v47]

theorem v73_at (x0 : (⟨S100000x128, .f32⟩ : BufTy).Contents (Elt Ideal)) (x6 : (⟨S128x128, .f32⟩ : BufTy).Contents (Elt Ideal))
    (x7 : (⟨S128, .f32⟩ : BufTy).Contents (Elt Ideal)) (p : Fin 100000) (q : Fin 128) :
    val_main_v73 (F := Ideal) x0 x6 x7 (ix2 p q) = Cert.Spec.dotAt (n := 100000) x0 x6 p q + x7 (ix1 q) := by
  rw [val_main_v73_apply, val_main_v70_apply, val_main_v72_apply, val_main_v71_apply, idx_v71_v72, Ideal.addf_def]
  unfold Cert.Spec.dotAt
  refine congrArg (· + x7 (ix1 q)) (Finset.sum_congr rfl fun k _ => ?_)
  rw [lidx_v70, ridx_v70]

/-! ## The layer norm of the three summands -/

section Norm

variable (x0 : (⟨S100000x128, .f32⟩ : BufTy).Contents (Elt Ideal)) (x1 : (⟨S20000x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S2x1600000, .i32⟩ : BufTy).Contents (Elt Ideal)) (x9 x10 : (⟨S800000, .i32⟩ : BufTy).Contents (Elt Ideal))

/-- Row p of the three summands plus the small constant. -/
abbrev row (p : Fin 100000) : Fin 128 → EReal :=
  Cert.Spec.comb (n := 100000) (val_main_v46 (F := Ideal) x0 x2 x3 x8) (val_main_v69 (F := Ideal) x1 x4 x5 x9 x10)
    (val_main_v73 (F := Ideal) x0 x6 x7) p

/-- The sum of the three summands and the constant, at (p, k). -/
theorem v77_at (p : Fin 100000) (k : Fin 128) :
    val_main_v77 (F := Ideal) x0 x1 x2 x3 x4 x5 x6 x7 x8 x9 x10 (ix2 p k) = row x0 x1 x2 x3 x4 x5 x6 x7 x8 x9 x10 p k := by
  rw [val_main_v77_apply, val_main_v75_apply, val_main_v74_apply, val_main_v76_apply, val_main_cst_15_apply]
  unfold row Cert.Spec.comb Cert.Spec.epsAdd
  simp only [Ideal.addf_def, Ideal.ofBits_def]

/-- The row's sum. -/
theorem v78_at (p : Fin 100000) :
    val_main_v78 (F := Ideal) x0 x1 x2 x3 x4 x5 x6 x7 x8 x9 x10 (ix1 p)
      = ∑ k : Fin 128, row x0 x1 x2 x3 x4 x5 x6 x7 x8 x9 x10 p k := by
  rw [val_main_v78_apply, val_main_cst_16_apply, Ideal.ofBits_def, Ideal.ofBits_zero_f32, zero_add]
  refine Finset.sum_congr rfl fun k _ => ?_
  rw [idx_v78, v77_at]

/-- The row's mean, read at any index of the [n,1] array whose row is p. -/
theorem v81_at (p : Fin 100000) (j : S100000x1.Idx) (hj : idx_main_v79 j = ix1 p) :
    val_main_v81 (F := Ideal) x0 x1 x2 x3 x4 x5 x6 x7 x8 x9 x10 j
      = Cert.Spec.rowMean (row x0 x1 x2 x3 x4 x5 x6 x7 x8 x9 x10 p) := by
  rw [val_main_v81_apply, val_main_v79_apply, val_main_v80_apply, val_main_cst_17_apply, hj, v78_at,
    Ideal.hostDivf_def, Ideal.ofBits_def]
  unfold Cert.Spec.rowMean Cert.Spec.c128
  rfl

/-- The deviation from the mean, at (p, k). -/
theorem v83_at (p : Fin 100000) (k : Fin 128) :
    val_main_v83 (F := Ideal) x0 x1 x2 x3 x4 x5 x6 x7 x8 x9 x10 (ix2 p k)
      = row x0 x1 x2 x3 x4 x5 x6 x7 x8 x9 x10 p k - Cert.Spec.rowMean (row x0 x1 x2 x3 x4 x5 x6 x7 x8 x9 x10 p) := by
  rw [val_main_v83_apply, val_main_v82_apply, v81_at x0 x1 x2 x3 x4 x5 x6 x7 x8 x9 x10 p _ (idx_v79_v82 p k), v77_at,
    Ideal.subf_def]

theorem v90_at (p : Fin 100000) (k : Fin 128) :
    val_main_v90 (F := Ideal) x0 x1 x2 x3 x4 x5 x6 x7 x8 x9 x10 (ix2 p k)
      = row x0 x1 x2 x3 x4 x5 x6 x7 x8 x9 x10 p k - Cert.Spec.rowMean (row x0 x1 x2 x3 x4 x5 x6 x7 x8 x9 x10 p) := by
  rw [val_main_v90_apply, val_main_v89_apply, v81_at x0 x1 x2 x3 x4 x5 x6 x7 x8 x9 x10 p _ (idx_v79_v89 p k), v77_at,
    Ideal.subf_def]

/-- The sum of the squared deviations. -/
theorem v85_at (p : Fin 100000) :
    val_main_v85 (F := Ideal) x0 x1 x2 x3 x4 x5 x6 x7 x8 x9 x10 (ix1 p)
      = ∑ k : Fin 128, (row x0 x1 x2 x3 x4 x5 x6 x7 x8 x9 x10 p k - Cert.Spec.rowMean (row x0 x1 x2 x3 x4 x5 x6 x7 x8 x9 x10 p))
          * (row x0 x1 x2 x3 x4 x5 x6 x7 x8 x9 x10 p k - Cert.Spec.rowMean (row x0 x1 x2 x3 x4 x5 x6 x7 x8 x9 x10 p)) := by
  rw [val_main_v85_apply, val_main_cst_18_apply, Ideal.ofBits_def, Ideal.ofBits_zero_f32, zero_add]
  refine Finset.sum_congr rfl fun k _ => ?_
  rw [idx_v85, val_main_v84_apply, v83_at, Ideal.mulf_def]

/-- The row's variance, read at any index of the [n,1] array whose row is p. -/
theorem v88_at (p : Fin 100000) (j : S100000x1.Idx) (hj : idx_main_v86 j = ix1 p) :
    val_main_v88 (F := Ideal) x0 x1 x2 x3 x4 x5 x6 x7 x8 x9 x10 j
      = Cert.Spec.rowVar (row x0 x1 x2 x3 x4 x5 x6 x7 x8 x9 x10 p) := by
  rw [val_main_v88_apply, val_main_v86_apply, val_main_v87_apply, val_main_cst_19_apply, hj, v85_at,
    Ideal.hostDivf_def, Ideal.ofBits_def]
  unfold Cert.Spec.rowVar Cert.Spec.c128
  rfl

end Norm

theorem v95_at (x0 : (⟨S100000x128, .f32⟩ : BufTy).Contents (Elt Ideal)) (x1 : (⟨S20000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S2x1600000, .i32⟩ : BufTy).Contents (Elt Ideal)) (x9 x10 : (⟨S800000, .i32⟩ : BufTy).Contents (Elt Ideal))
    (p : Fin 100000) (q : Fin 128) :
    val_main_v95 (F := Ideal) x0 x1 x2 x3 x4 x5 x6 x7 x8 x9 x10 (ix2 p q)
      = Cert.Spec.lnAt (Cert.Spec.comb (n := 100000) (val_main_v46 (F := Ideal) x0 x2 x3 x8)
          (val_main_v69 (F := Ideal) x1 x4 x5 x9 x10) (val_main_v73 (F := Ideal) x0 x6 x7) p) q := by
  rw [val_main_v95_apply, val_main_v94_apply, val_main_v93_apply, val_main_v92_apply, val_main_v91_apply,
    val_main_cst_20_apply, v88_at x0 x1 x2 x3 x4 x5 x6 x7 x8 x9 x10 p _ (idx_v86_v94 p q), v90_at,
    Ideal.mulf_def, Ideal.addf_def, Ideal.hostUnary_rsqrt_def, Ideal.ofBits_def]
  unfold Cert.Spec.lnAt Cert.Spec.epsLn
  rfl

end Cert.ReferenceIdeal.RefRead

end
-- ==== Proof.KernelValue.lean ====
/-
  The kernel's result array is the reference's last stage of the same arguments.

  The first region leaves the two products of the protein features (one with the bias row added), the second
  the biased product of the drug features: index by index these are the reference's stages, both being the
  same finite sums. The host operations between the regions are the reference's own chain and carry those
  equalities to the two summands the last region reads; its third summand is the first region's second
  output, untouched. The last region leaves, row by row, the layer norm of the three summands plus the
  small constant, which is the reference's last stage read at the same index.
-/
import proofs.«147961_j2302102471104_1_alg».proof.Proof.RunNamed
import proofs.«147961_j2302102471104_1_alg».proof.Proof.Reads
import proofs.«147961_j2302102471104_1_alg».proof.Proof.Mid
import proofs.«147961_j2302102471104_1_alg».proof.Proof.PayDot
import proofs.«147961_j2302102471104_1_alg».proof.Proof.PayNorm
import proofs.«147961_j2302102471104_1_alg».proof.Proof.Arr01
import proofs.«147961_j2302102471104_1_alg».proof.Proof.Arr2
import proofs.«147961_j2302102471104_1_alg».proof.Proof.RefRead

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The first region's first output is the reference's product of the protein features with the first weight
    matrix. -/
theorem out0_4_eq (c : Dev nD) :
    (dat0 (V1 m ρ) c).arrAt 4 cfg0.N
      = Cert.ReferenceIdeal.Read.val_main_v0 (F := Ideal) (m ((c : Thread nD τ).loc main_arg0)) (m ((c : Thread nD τ).loc main_arg2)) := by
  rw [Cert.KernelIdeal.Arr.arr0_4 (V1 m ρ) Cert.KernelIdeal.PayDot.pay_dot c]
  funext i
  obtain ⟨p, q, rfl⟩ : ∃ (p : Fin 100000) (q : Fin 128), i = ix2 p q := ⟨i 0, i 1, eq_ix2 i⟩
  refine Eq.trans ?_ (Cert.ReferenceIdeal.RefRead.v0_at _ _ p q).symm
  show Cert.Spec.dotAt (n := 100000) (W1 m ρ c (Proc.devRef .tc main_arg0)) (W1 m ρ c (Proc.devRef .tc main_arg2)) p q = _
  rw [Cert.KernelIdeal.Reads.W1_of_ne m ρ c main_arg0 (by decide) (by decide),
    Cert.KernelIdeal.Reads.W1_of_ne m ρ c main_arg2 (by decide) (by decide)]

/-- The first region's second output is the reference's biased product of the protein features with the third
    weight matrix. -/
theorem out0_5_eq (c : Dev nD) :
    (dat0 (V1 m ρ) c).arrAt 5 cfg0.N
      = Cert.ReferenceIdeal.Read.val_main_v73 (F := Ideal) (m ((c : Thread nD τ).loc main_arg0)) (m ((c : Thread nD τ).loc main_arg6)) (m ((c : Thread nD τ).loc main_arg7)) := by
  rw [Cert.KernelIdeal.Arr.arr0_5 (V1 m ρ) Cert.KernelIdeal.PayDot.pay_dot_bias0 c]
  funext i
  obtain ⟨p, q, rfl⟩ : ∃ (p : Fin 100000) (q : Fin 128), i = ix2 p q := ⟨i 0, i 1, eq_ix2 i⟩
  refine Eq.trans ?_ (Cert.ReferenceIdeal.RefRead.v73_at _ _ _ p q).symm
  show Cert.Spec.dotAt (n := 100000) (W1 m ρ c (Proc.devRef .tc main_arg0)) (W1 m ρ c (Proc.devRef .tc main_arg6)) p q
      + W1 m ρ c (Proc.devRef .tc main_v0) (ix2 (0 : Fin 1) q) = _
  rw [Cert.KernelIdeal.Reads.W1_of_ne m ρ c main_arg0 (by decide) (by decide),
    Cert.KernelIdeal.Reads.W1_of_ne m ρ c main_arg6 (by decide) (by decide),
    Cert.KernelIdeal.Reads.W1_v0_at m ρ c q]

/-- The second region's output is the reference's biased product of the drug features with the second weight
    matrix. -/
theorem out1_3_eq (c : Dev nD) :
    (dat1 (V2 m ρ) c).arrAt 3 cfg1.N
      = Cert.ReferenceIdeal.Read.val_main_v50 (F := Ideal) (m ((c : Thread nD τ).loc main_arg1)) (m ((c : Thread nD τ).loc main_arg4)) (m ((c : Thread nD τ).loc main_arg5)) := by
  rw [Cert.KernelIdeal.Arr.arr1_3 (V2 m ρ) Cert.KernelIdeal.PayDot.pay_dot_bias1 c]
  funext i
  obtain ⟨p, q, rfl⟩ : ∃ (p : Fin 20000) (q : Fin 128), i = ix2 p q := ⟨i 0, i 1, eq_ix2 i⟩
  refine Eq.trans ?_ (Cert.ReferenceIdeal.RefRead.v50_at _ _ _ p q).symm
  show Cert.Spec.dotAt (n := 20000) (W2 m ρ c (Proc.devRef .tc main_arg1)) (W2 m ρ c (Proc.devRef .tc main_arg4)) p q
      + W2 m ρ c (Proc.devRef .tc main_v1) (ix2 (0 : Fin 1) q) = _
  rw [Cert.KernelIdeal.Reads.W2_of_arg m ρ c main_arg1 (by decide) (by decide) (by decide),
    Cert.KernelIdeal.Reads.W2_of_arg m ρ c main_arg4 (by decide) (by decide) (by decide),
    Cert.KernelIdeal.Reads.W2_v1_at m ρ c q]

/-- The first summand the last region reads is the reference's normalised, biased neighbourhood sum. -/
theorem in2_0_eq (c : Dev nD) :
    V6 m ρ c main_v49
      = Cert.ReferenceIdeal.Read.val_main_v46 (F := Ideal) (m ((c : Thread nD τ).loc main_arg0)) (m ((c : Thread nD τ).loc main_arg2)) (m ((c : Thread nD τ).loc main_arg3)) (m ((c : Thread nD τ).loc main_arg8)) :=
  Cert.KernelIdeal.Mid.mid_gcn (W3 m ρ c) _ _ _ _
    ((Cert.KernelIdeal.Reads.W3_out0_4 m ρ c).trans (out0_4_eq m ρ c))
    (Cert.KernelIdeal.Reads.W3_of_arg m ρ c main_arg3 (by decide) (by decide) (by decide) (by decide))
    (Cert.KernelIdeal.Reads.W3_of_arg m ρ c main_arg8 (by decide) (by decide) (by decide) (by decide))

/-- The second summand the last region reads is the reference's per-protein mean of the gathered drug rows. -/
theorem in2_1_eq (c : Dev nD) :
    V6 m ρ c main_v68
      = Cert.ReferenceIdeal.Read.val_main_v69 (F := Ideal) (m ((c : Thread nD τ).loc main_arg1)) (m ((c : Thread nD τ).loc main_arg4)) (m ((c : Thread nD τ).loc main_arg5)) (m ((c : Thread nD τ).loc main_arg9)) (m ((c : Thread nD τ).loc main_arg10)) :=
  Cert.KernelIdeal.Mid.mid_dti (W3 m ρ c) _ _ _ _ _
    ((Cert.KernelIdeal.Reads.W3_out1_3 m ρ c).trans (out1_3_eq m ρ c))
    (Cert.KernelIdeal.Reads.W3_of_arg m ρ c main_arg9 (by decide) (by decide) (by decide) (by decide))
    (Cert.KernelIdeal.Reads.W3_of_arg m ρ c main_arg10 (by decide) (by decide) (by decide) (by decide))

/-- The third summand the last region reads is the first region's second output, untouched in between. -/
theorem in2_2_eq (c : Dev nD) :
    V6 m ρ c main_v2_1
      = Cert.ReferenceIdeal.Read.val_main_v73 (F := Ideal) (m ((c : Thread nD τ).loc main_arg0)) (m ((c : Thread nD τ).loc main_arg6)) (m ((c : Thread nD τ).loc main_arg7)) :=
  (Cert.KernelIdeal.Mid.mid_keep (W3 m ρ c)).trans
    ((Cert.KernelIdeal.Reads.W3_out0_5 m ρ c).trans (out0_5_eq m ρ c))

/-- The result buffer at the end of the run is the reference's last stage of the same arguments. -/
theorem result_eq (c : Dev nD) :
    W7 m ρ c (Proc.devRef .tc main_v69)
      = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Cert.KernelIdeal.Reads.W7_out2_3 m ρ c).trans ?_
  rw [Cert.KernelIdeal.Arr.arr2_3 (V6 m ρ) Cert.KernelIdeal.PayNorm.pay_norm c]
  funext i
  obtain ⟨p, q, rfl⟩ : ∃ (p : Fin 100000) (q : Fin 128), i = ix2 p q := ⟨i 0, i 1, eq_ix2 i⟩
  refine Eq.trans ?_ (Cert.ReferenceIdeal.RefRead.v95_at _ _ _ _ _ _ _ _ _ _ _ p q).symm
  show Cert.Spec.lnAt (Cert.Spec.comb (n := 100000) (V6 m ρ c main_v49) (V6 m ρ c main_v68) (V6 m ρ c main_v2_1) p) q = _
  rw [in2_0_eq m ρ c, in2_1_eq m ρ c, in2_2_eq m ρ c]

/-- Every weakly fair execution of the kernel's program terminates, nothing faulting, with its result array at
    the reference's last stage of the arguments and the arguments as launched. -/
theorem run : θ_run defs (onTc (τ := τ) (main (F := Ideal))) ⟨m, fun _ => 0, ρ⟩ (fun r => ∀ c : Dev nD,
      r.2.mem ((c.tc : Thread nD τ).loc main_v69)
        = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_named m ρ)

end Cert.KernelIdeal.Result

end
-- ==== Proof.lean ====
/-
  The kernel computes, for 100000 proteins with 128 features each, the layer norm of the sum of three terms
  plus a small constant: a degree-normalised sum over each protein's neighbours (self loops included) of the
  features times a first weight matrix, plus a bias; the mean over each protein's incident drugs of the drug
  features times a second weight matrix plus a bias; and the protein's own features times a third weight
  matrix plus a bias. The kernel's program makes the three matrix products in two pipelined regions, blocks
  of 2000 rows at a time, the gathers and scatter-adds on the host between the regions, and the sum and the
  layer norm in a third pipelined region; the reference makes everything on the host.

  Over the extended reals the two programs compute the same function of the arguments. A change of float
  format is the identity there, so each region's matrix product is, entry by entry, the same finite sum as
  the reference's; the host operations between the regions are the reference's own chain, applied to equal
  arrays; and the last region's row-wise mean, variance and inverse square root are the reference's, the
  same three f32 words standing on both sides. No law that fails at an infinity is used, so the
  precondition on the inputs is never opened.

  The three programs' frames are the generated ones (the reference's is its run with the result dropped);
  the idealization rewrote no operation, so there is nothing to preserve.
-/
import proofs.«147961_j2302102471104_1_alg».proof.Defs
import proofs.«147961_j2302102471104_1_alg».proof.Proof.Gen.Kernel
import proofs.«147961_j2302102471104_1_alg».proof.Proof.Gen.Kernel.Frame
import proofs.«147961_j2302102471104_1_alg».proof.Proof.Gen.KernelIdeal
import proofs.«147961_j2302102471104_1_alg».proof.Proof.Gen.KernelIdeal.Frame
import proofs.«147961_j2302102471104_1_alg».proof.Proof.Gen.ReferenceIdeal
import proofs.«147961_j2302102471104_1_alg».proof.Proof.Gen.Pre_finite_inputs
import proofs.«147961_j2302102471104_1_alg».proof.Proof.RefReadP
import proofs.«147961_j2302102471104_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the reference's last
    stage of the kernel's arguments: the kernel by its run read back through its regions, the reference by its
    run, the arguments' agreement rewritten. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v95_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
